-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x48 : Shape := ⟨2, ![2097152, 48]⟩
abbrev S64x32 : Shape := ⟨2, ![64, 32]⟩
abbrev S16x64 : Shape := ⟨2, ![16, 64]⟩
abbrev S64x64 : Shape := ⟨2, ![64, 64]⟩
abbrev S3x64 : Shape := ⟨2, ![3, 64]⟩
abbrev S_ : Shape := ⟨0, ![]⟩

class Facts : Prop where
  bcast_S_S2097152x48 : S_.BroadcastsInDim S2097152x48 (![] : Fin 0 → Fin S2097152x48.rank)
  reducesTo_S2097152x48_S_d0_1 : S2097152x48.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S16x64 : S_.BroadcastsInDim S16x64 (![] : Fin 0 → Fin S16x64.rank)
  reducesTo_S16x64_S_d0_1 : S16x64.ReducesTo [0, 1] S_
  bcast_S_S64x64 : S_.BroadcastsInDim S64x64 (![] : Fin 0 → Fin S64x64.rank)
  reducesTo_S64x64_S_d0_1 : S64x64.ReducesTo [0, 1] S_
  bcast_S_S3x64 : S_.BroadcastsInDim S3x64 (![] : Fin 0 → Fin S3x64.rank)
  reducesTo_S3x64_S_d0_1 : S3x64.ReducesTo [0, 1] S_

variable [Facts]

def fn_part1 {F : FTy → Type} [FloatOps F] (main_arg4 : FVec F S64x64 .f32) (main_arg5 : FVec F S3x64 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S3x64 .f32 := Host.absf main_arg5
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  main_v28

def fn {F : FTy → Type} [FloatOps F] (main_arg0 : FVec F S2097152x48 .f32) (main_arg1 : FVec F S64x32 .f32) (main_arg2 : FVec F S16x64 .f32) (main_arg3 : FVec F S64x32 .f32) (main_arg4 : FVec F S64x64 .f32) (main_arg5 : FVec F S3x64 .f32) : IVec S_ 1 :=
  let main_v0 : FVec F S2097152x48 .f32 := Host.absf main_arg0
  let main_cst : FVec F S_ .f32 := constant S_ .f32 0x7F800000#32
  let main_v1 : FVec F S2097152x48 .f32 := broadcastInDim S2097152x48 ![] bcast_S_S2097152x48 main_cst
  let main_v2 : IVec S2097152x48 1 := cmpf .olt main_v0 main_v1
  let main_c : IVec S_ 1 := constantI S_ 1 1#1
  let main_v3 : IVec S_ 1 := (fun x v => Host.reduce IntOp.andi x v reducesTo_S2097152x48_S_d0_1 h_S_) main_v2 main_c
  let main_v4 : FVec F S64x32 .f32 := Host.absf main_arg1
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S16x64 .f32 := Host.absf main_arg2
  let main_cst_2 : FVec F S_ .f32 := constant S_ .f32 0x7F800000#32
  let main_v10 : FVec F S16x64 .f32 := broadcastInDim S16x64 ![] bcast_S_S16x64 main_cst_2
  let main_v11 : IVec S16x64 1 := cmpf .olt main_v9 main_v10
  let main_c_3 : IVec S_ 1 := constantI S_ 1 1#1
  let main_v12 : IVec S_ 1 := (fun x v => Host.reduce IntOp.andi x v reducesTo_S16x64_S_d0_1 h_S_) main_v11 main_c_3
  let main_v13 : IVec S_ 1 := andi main_v8 main_v12
  let main_v14 : FVec F S64x32 .f32 := Host.absf main_arg3
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg4 main_arg5 main_v13 main_v16
-- ==== Kernel.lean ====
abbrev S2097152x48 : Shape := ⟨2, ![2097152, 48]⟩
abbrev S64x32 : Shape := ⟨2, ![64, 32]⟩
abbrev S16x64 : Shape := ⟨2, ![16, 64]⟩
abbrev S64x64 : Shape := ⟨2, ![64, 64]⟩
abbrev S3x64 : Shape := ⟨2, ![3, 64]⟩
abbrev S2097152x4 : Shape := ⟨2, ![2097152, 4]⟩
abbrev S4096x48 : Shape := ⟨2, ![4096, 48]⟩
abbrev S4096x4 : Shape := ⟨2, ![4096, 4]⟩
abbrev S4096x16 : Shape := ⟨2, ![4096, 16]⟩
abbrev S4096x32 : Shape := ⟨2, ![4096, 32]⟩
abbrev S32x64 : Shape := ⟨2, ![32, 64]⟩
abbrev S4096x64 : Shape := ⟨2, ![4096, 64]⟩
abbrev S64x16 : Shape := ⟨2, ![64, 16]⟩
abbrev S4096x1 : Shape := ⟨2, ![4096, 1]⟩
abbrev S4096 : Shape := ⟨1, ![4096]⟩
abbrev S64x3 : Shape := ⟨2, ![64, 3]⟩
abbrev S4096x3 : Shape := ⟨2, ![4096, 3]⟩

abbrev nBuf : Space → Nat
  | .hbm => 7
  | .vmem => 9
  | .smem => 0
  | _ => 0

abbrev bufTy : (tb : Table) → Fin (tcTables nBuf tb) → BufTy
  | .hbm, ⟨0, _⟩ => ⟨S2097152x48, .f32⟩
  | .hbm, ⟨1, _⟩ => ⟨S64x32, .f32⟩
  | .hbm, ⟨2, _⟩ => ⟨S16x64, .f32⟩
  | .hbm, ⟨3, _⟩ => ⟨S64x32, .f32⟩
  | .hbm, ⟨4, _⟩ => ⟨S64x64, .f32⟩
  | .hbm, ⟨5, _⟩ => ⟨S3x64, .f32⟩
  | .hbm, ⟨6, _⟩ => ⟨S2097152x4, .f32⟩
  | .local _ .vmem, ⟨0, _⟩ => ⟨S4096x48, .f32⟩
  | .local _ .vmem, ⟨1, _⟩ => ⟨S4096x48, .f32⟩
  | .local _ .vmem, ⟨2, _⟩ => ⟨S64x32, .f32⟩
  | .local _ .vmem, ⟨3, _⟩ => ⟨S16x64, .f32⟩
  | .local _ .vmem, ⟨4, _⟩ => ⟨S64x32, .f32⟩
  | .local _ .vmem, ⟨5, _⟩ => ⟨S64x64, .f32⟩
  | .local _ .vmem, ⟨6, _⟩ => ⟨S3x64, .f32⟩
  | .local _ .vmem, ⟨7, _⟩ => ⟨S4096x4, .f32⟩
  | .local _ .vmem, ⟨8, _⟩ => ⟨S4096x4, .f32⟩
  | _, _ => ⟨S2097152x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x4 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  inb_S4096x48_S4096x48_0_0 : ∀ a, (![0, 0] : Fin 2 → Nat) a + S4096x48.size a ≤ S4096x48.size a
  h_S4096x48 : 0 < S4096x48.numel
  slices_S4096x48_o0_0_S4096x16 : S4096x48.Slices ![0, 0] S4096x16
  slices_S4096x48_o0_16_S4096x32 : S4096x48.Slices ![0, 16] S4096x32
  inb_S64x32_S64x32_0_0 : ∀ a, (![0, 0] : Fin 2 → Nat) a + S64x32.size a ≤ S64x32.size a
  h_S64x32 : 0 < S64x32.numel
  bitsLt_bf16_f32 : FTy.bits .bf16 < FTy.bits .f32
  transposes_S64x32_p1_0_S32x64 : S64x32.Transposes [1, 0] S32x64
  inb_S16x64_S16x64_0_0 : ∀ a, (![0, 0] : Fin 2 → Nat) a + S16x64.size a ≤ S16x64.size a
  h_S16x64 : 0 < S16x64.numel
  transposes_S16x64_p1_0_S64x16 : S16x64.Transposes [1, 0] S64x16
  slices_S4096x16_o0_0_S4096x1 : S4096x16.Slices ![0, 0] S4096x1
  shapeCasts_S4096x1_S4096 : S4096x1.ShapeCasts S4096
  concatenates_S4096x16_S4096x16_S4096x32_d1 : Shape.Concatenates [S4096x16, S4096x16] S4096x32 1
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S3x64_S3x64_0_0 : ∀ a, (![0, 0] : Fin 2 → Nat) a + S3x64.size a ≤ S3x64.size a
  h_S3x64 : 0 < S3x64.numel
  transposes_S3x64_p1_0_S64x3 : S3x64.Transposes [1, 0] S64x3
  shapeCasts_S4096_S4096x1 : S4096.ShapeCasts S4096x1
  concatenates_S4096x3_S4096x1_S4096x4_d1 : Shape.Concatenates [S4096x3, S4096x1] S4096x4 1
  inb_S4096x4_S4096x4_0_0 : ∀ a, (![0, 0] : Fin 2 → Nat) a + S4096x4.size a ≤ S4096x4.size a
  h_S4096x4 : 0 < S4096x4.numel
  dot_S4096x32_S32x64_S4096x64_1_0_0_1_n_n_wf : DotDims.WF S4096x32 S32x64 S4096x64 [1] [0] [0] [1] [] []
  dot_S4096x64_S64x16_S4096x16_1_0_0_1_n_n_wf : DotDims.WF S4096x64 S64x16 S4096x16 [1] [0] [0] [1] [] []
  dot_S4096x64_S64x64_S4096x64_1_0_0_1_n_n_wf : DotDims.WF S4096x64 S64x64 S4096x64 [1] [0] [0] [1] [] []
  dot_S4096x64_S64x3_S4096x3_1_0_0_1_n_n_wf : DotDims.WF S4096x64 S64x3 S4096x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x48.size a ≤ S2097152x48.size a
  hwx0_0 : ∀ i : grid0.Coords, EltTy.bits .f32 = 32 ∨ (Rect.block (s := S2097152x48) S4096x48.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x32.size a ≤ S64x32.size a
  hwx0_1 : ∀ i : grid0.Coords, EltTy.bits .f32 = 32 ∨ (Rect.block (s := S64x32) S64x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x64.size a ≤ S16x64.size a
  hwx0_2 : ∀ i : grid0.Coords, EltTy.bits .f32 = 32 ∨ (Rect.block (s := S16x64) S16x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x32.size a ≤ S64x32.size a
  hwx0_3 : ∀ i : grid0.Coords, EltTy.bits .f32 = 32 ∨ (Rect.block (s := S64x32) S64x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x64.size a ≤ S3x64.size a
  hwx0_5 : ∀ i : grid0.Coords, EltTy.bits .f32 = 32 ∨ (Rect.block (s := S3x64) S3x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x4.size a ≤ S2097152x4.size a
  hwx0_6 : ∀ i : grid0.Coords, EltTy.bits .f32 = 32 ∨ (Rect.block (s := S2097152x4) S4096x4.size (cc0_transform_6 i) (hinb0_6 i)).WholeWords (EltTy.packing .f32)

variable [Facts₀]

def dot_S4096x32_S32x64_S4096x64_1_0_0_1_n_n : DotDims S4096x32 S32x64 S4096x64 where
  lhsContracting := [1]
  rhsContracting := [0]
  lhsNonContracting := [0]
  rhsNonContracting := [1]
  lhsBatch := []
  rhsBatch := []
  wf := dot_S4096x32_S32x64_S4096x64_1_0_0_1_n_n_wf
def dot_S4096x64_S64x16_S4096x16_1_0_0_1_n_n : DotDims S4096x64 S64x16 S4096x16 where
  lhsContracting := [1]
  rhsContracting := [0]
  lhsNonContracting := [0]
  rhsNonContracting := [1]
  lhsBatch := []
  rhsBatch := []
  wf := dot_S4096x64_S64x16_S4096x16_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x64_S64x3_S4096x3_1_0_0_1_n_n : DotDims S4096x64 S64x3 S4096x3 where
  lhsContracting := [1]
  rhsContracting := [0]
  lhsNonContracting := [0]
  rhsNonContracting := [1]
  lhsBatch := []
  rhsBatch := []
  wf := dot_S4096x64_S64x3_S4096x3_1_0_0_1_n_n_wf

abbrev win0_0 : Pipeline.Window sig grid0 :=
  Pipeline.Window.ofSpec (Memref.whole main_arg0) S4096x48.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S3x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S4096x4.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2097152x48 : Shape := ⟨2, ![2097152, 48]⟩
abbrev S64x32 : Shape := ⟨2, ![64, 32]⟩
abbrev S16x64 : Shape := ⟨2, ![16, 64]⟩
abbrev S64x64 : Shape := ⟨2, ![64, 64]⟩
abbrev S3x64 : Shape := ⟨2, ![3, 64]⟩
abbrev S2097152x16 : Shape := ⟨2, ![2097152, 16]⟩
abbrev S2097152x32 : Shape := ⟨2, ![2097152, 32]⟩
abbrev S32x64 : Shape := ⟨2, ![32, 64]⟩
abbrev S2097152x64 : Shape := ⟨2, ![2097152, 64]⟩
abbrev S_ : Shape := ⟨0, ![]⟩
abbrev S64x16 : Shape := ⟨2, ![64, 16]⟩
abbrev S2097152x1 : Shape := ⟨2, ![2097152, 1]⟩
abbrev S2097152 : Shape := ⟨1, ![2097152]⟩
abbrev S64x3 : Shape := ⟨2, ![64, 3]⟩
abbrev S2097152x3 : Shape := ⟨2, ![2097152, 3]⟩
abbrev S2097152x4 : Shape := ⟨2, ![2097152, 4]⟩

abbrev nBuf : Space → Nat
  | .hbm => 41
  | .vmem => 0
  | .smem => 0
  | _ => 0

abbrev bufTy : (tb : Table) → Fin (tcTables nBuf tb) → BufTy
  | .hbm, ⟨0, _⟩ => ⟨S2097152x48, .f32⟩
  | .hbm, ⟨1, _⟩ => ⟨S64x32, .f32⟩
  | .hbm, ⟨2, _⟩ => ⟨S16x64, .f32⟩
  | .hbm, ⟨3, _⟩ => ⟨S64x32, .f32⟩
  | .hbm, ⟨4, _⟩ => ⟨S64x64, .f32⟩
  | .hbm, ⟨5, _⟩ => ⟨S3x64, .f32⟩
  | .hbm, ⟨6, _⟩ => ⟨S2097152x16, .f32⟩
  | .hbm, ⟨7, _⟩ => ⟨S2097152x32, .f32⟩
  | .hbm, ⟨8, _⟩ => ⟨S32x64, .f32⟩
  | .hbm, ⟨9, _⟩ => ⟨S2097152x64, .f32⟩
  | .hbm, ⟨10, _⟩ => ⟨S_, .f32⟩
  | .hbm, ⟨11, _⟩ => ⟨S2097152x64, .f32⟩
  | .hbm, ⟨12, _⟩ => ⟨S2097152x64, .f32⟩
  | .hbm, ⟨13, _⟩ => ⟨S64x16, .f32⟩
  | .hbm, ⟨14, _⟩ => ⟨S2097152x16, .f32⟩
  | .hbm, ⟨15, _⟩ => ⟨S2097152x1, .f32⟩
  | .hbm, ⟨16, _⟩ => ⟨S2097152, .f32⟩
  | .hbm, ⟨17, _⟩ => ⟨S2097152, .f32⟩
  | .hbm, ⟨18, _⟩ => ⟨S2097152x32, .f32⟩
  | .hbm, ⟨19, _⟩ => ⟨S32x64, .f32⟩
  | .hbm, ⟨20, _⟩ => ⟨S2097152x64, .f32⟩
  | .hbm, ⟨21, _⟩ => ⟨S_, .f32⟩
  | .hbm, ⟨22, _⟩ => ⟨S2097152x64, .f32⟩
  | .hbm, ⟨23, _⟩ => ⟨S2097152x64, .f32⟩
  | .hbm, ⟨24, _⟩ => ⟨S64x64, .f32⟩
  | .hbm, ⟨25, _⟩ => ⟨S2097152x64, .f32⟩
  | .hbm, ⟨26, _⟩ => ⟨S_, .f32⟩
  | .hbm, ⟨27, _⟩ => ⟨S2097152x64, .f32⟩
  | .hbm, ⟨28, _⟩ => ⟨S2097152x64, .f32⟩
  | .hbm, ⟨29, _⟩ => ⟨S64x3, .f32⟩
  | .hbm, ⟨30, _⟩ => ⟨S2097152x3, .f32⟩
  | .hbm, ⟨31, _⟩ => ⟨S2097152x3, .f32⟩
  | .hbm, ⟨32, _⟩ => ⟨S2097152x3, .f32⟩
  | .hbm, ⟨33, _⟩ => ⟨S_, .f32⟩
  | .hbm, ⟨34, _⟩ => ⟨S2097152x3, .f32⟩
  | .hbm, ⟨35, _⟩ => ⟨S2097152x3, .f32⟩
  | .hbm, ⟨36, _⟩ => ⟨S_, .f32⟩
  | .hbm, ⟨37, _⟩ => ⟨S2097152x3, .f32⟩
  | .hbm, ⟨38, _⟩ => ⟨S2097152x3, .f32⟩
  | .hbm, ⟨39, _⟩ => ⟨S2097152x1, .f32⟩
  | .hbm, ⟨40, _⟩ => ⟨S2097152x4, .f32⟩
  | _, _ => ⟨S2097152x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call1_cst : Ref sig .tc := ⟨.hbm, 21, rfl⟩
abbrev main_call1_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call2_cst : Ref sig .tc := ⟨.hbm, 26, rfl⟩
abbrev main_call2_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst : Ref sig .tc := ⟨.hbm, 33, rfl⟩
abbrev main_v21 : Ref sig .tc := ⟨.hbm, 34, rfl⟩
abbrev main_v22 : Ref sig .tc := ⟨.hbm, 35, rfl⟩
abbrev main_cst_0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]

class Facts₀ : Prop where
  slices_S2097152x48_S2097152x16_0_0 : S2097152x48.Slices ![0, 0] S2097152x16
  slices_S2097152x48_S2097152x32_0_16 : S2097152x48.Slices ![0, 16] S2097152x32
  transposes_S64x32_S32x64_1_0 : S64x32.Transposes [1, 0] S32x64
  bcast_S_S2097152x64 : S_.BroadcastsInDim S2097152x64 (![] : Fin 0 → Fin S2097152x64.rank)
  transposes_S16x64_S64x16_1_0 : S16x64.Transposes [1, 0] S64x16
  slices_S2097152x16_S2097152x1_0_0 : S2097152x16.Slices ![0, 0] S2097152x1
  shapeCasts_S2097152x1_S2097152 : S2097152x1.ShapeCasts S2097152
  concatenates_S2097152x16_S2097152x16_S2097152x32_d1 : Shape.Concatenates [S2097152x16, S2097152x16] S2097152x32 1
  transposes_S64x64_S64x64_1_0 : S64x64.Transposes [1, 0] S64x64
  transposes_S3x64_S64x3_1_0 : S3x64.Transposes [1, 0] S64x3
  bcast_S_S2097152x3 : S_.BroadcastsInDim S2097152x3 (![] : Fin 0 → Fin S2097152x3.rank)
  bcast_S2097152_S2097152x1_0 : S2097152.BroadcastsInDim S2097152x1 (![0] : Fin 1 → Fin S2097152x1.rank)
  concatenates_S2097152x3_S2097152x1_S2097152x4_d1 : Shape.Concatenates [S2097152x3, S2097152x1] S2097152x4 1
  dot_S2097152x32_S32x64_S2097152x64_1_0_0_1_n_n_wf : DotDims.WF S2097152x32 S32x64 S2097152x64 [1] [0] [0] [1] [] []
  dot_S2097152x64_S64x16_S2097152x16_1_0_0_1_n_n_wf : DotDims.WF S2097152x64 S64x16 S2097152x16 [1] [0] [0] [1] [] []
  dot_S2097152x64_S64x64_S2097152x64_1_0_0_1_n_n_wf : DotDims.WF S2097152x64 S64x64 S2097152x64 [1] [0] [0] [1] [] []
  dot_S2097152x64_S64x3_S2097152x3_1_0_0_1_n_n_wf : DotDims.WF S2097152x64 S64x3 S2097152x3 [1] [0] [0] [1] [] []

variable [Facts₀]

def dot_S2097152x32_S32x64_S2097152x64_1_0_0_1_n_n : DotDims S2097152x32 S32x64 S2097152x64 where
  lhsContracting := [1]
  rhsContracting := [0]
  lhsNonContracting := [0]
  rhsNonContracting := [1]
  lhsBatch := []
  rhsBatch := []
  wf := dot_S2097152x32_S32x64_S2097152x64_1_0_0_1_n_n_wf
def dot_S2097152x64_S64x16_S2097152x16_1_0_0_1_n_n : DotDims S2097152x64 S64x16 S2097152x16 where
  lhsContracting := [1]
  rhsContracting := [0]
  lhsNonContracting := [0]
  rhsNonContracting := [1]
  lhsBatch := []
  rhsBatch := []
  wf := dot_S2097152x64_S64x16_S2097152x16_1_0_0_1_n_n_wf
def dot_S2097152x64_S64x64_S2097152x64_1_0_0_1_n_n : DotDims S2097152x64 S64x64 S2097152x64 where
  lhsContracting := [1]
  rhsContracting := [0]
  lhsNonContracting := [0]
  rhsNonContracting := [1]
  lhsBatch := []
  rhsBatch := []
  wf := dot_S2097152x64_S64x64_S2097152x64_1_0_0_1_n_n_wf
def dot_S2097152x64_S64x3_S2097152x3_1_0_0_1_n_n : DotDims S2097152x64 S64x3 S2097152x3 where
  lhsContracting := [1]
  rhsContracting := [0]
  lhsNonContracting := [0]
  rhsNonContracting := [1]
  lhsBatch := []
  rhsBatch := []
  wf := dot_S2097152x64_S64x3_S2097152x3_1_0_0_1_n_n_wf

class Facts : Prop extends Facts₀ where

variable [Facts]
-- ==== Proof.LibRowwise.lean ====
/-
  Rank-2 vectors read row by row, at the extended reals, for any sizes.

    * a plain matrix product `[M, K] × [K, N]` into a zero accumulator, at `(p, q)`: `∑ₖ a(p, k) · b(k, q)`;
    * a sum over the lanes (axis 1) of an `[A, B]` vector, at row `p`: `∑ₖ v(p, k)`;
    * a maximum over the lanes, at row `p`: the fold of `max` from the starting word's value over `v(p, ·)`;
    * the cast of a length-`A` vector to a column `[A, 1]`, at `(p, u)`: the vector at `p`;
    * the broadcast of a column `[A, 1]` along the lanes to `[A, B]`, at `(p, q)`: the column at `(p, 0)`.

  A dimension-numbers record that contracts the left operand's axis 1 with the right operand's axis 0 and has no batch
  axes IS the plain record (`eq_plain`), so the product lemma serves every such record a program prints.
-/
import Idealize.ShloMosaic.PureOps.Ideal.Laws
import Idealize.ShloMosaic.Lib.ValueIdx
import Idealize.ShloMosaic.Lib.Pipeline.Value

noncomputable section

namespace Cert.Lib.Rowwise

open Idealize.ShloMosaic Idealize.ShloMosaic.ValueIdx

/-! ## The plain matrix product -/

section Dot

variable {M K N : Nat}

/-- A record over `[M, K]`, `[K, N]`, `[M, N]` whose six lists are the plain product's is the plain record. -/
theorem eq_plain (D : DotDims ⟨2, ![M, K]⟩ ⟨2, ![K, N]⟩ ⟨2, ![M, N]⟩) (h1 : D.lhsContracting = [1]) (h2 : D.rhsContracting = [0])
    (h3 : D.lhsNonContracting = [0]) (h4 : D.rhsNonContracting = [1]) (h5 : D.lhsBatch = []) (h6 : D.rhsBatch = []) :
    D = DotDims.plain M K N := by
  cases D
  simp only at h1 h2 h3 h4 h5 h6
  subst h1 h2 h3 h4 h5 h6
  rfl

theorem plain_lhs0 (j : (⟨2, ![M, N]⟩ : Shape).Idx) (q : (DotDims.plain M K N).contr.Idx) :
    ((DotDims.plain M K N).lhsIdx j q 0).val = (j 0).val := rfl
theorem plain_lhs1 (j : (⟨2, ![M, N]⟩ : Shape).Idx) (q : (DotDims.plain M K N).contr.Idx) :
    ((DotDims.plain M K N).lhsIdx j q 1).val = (q ⟨0, Nat.one_pos⟩).val := rfl
theorem plain_rhs0 (j : (⟨2, ![M, N]⟩ : Shape).Idx) (q : (DotDims.plain M K N).contr.Idx) :
    ((DotDims.plain M K N).rhsIdx j q 0).val = (q ⟨0, Nat.one_pos⟩).val := rfl
theorem plain_rhs1 (j : (⟨2, ![M, N]⟩ : Shape).Idx) (q : (DotDims.plain M K N).contr.Idx) :
    ((DotDims.plain M K N).rhsIdx j q 1).val = (j 1).val := rfl

/-- The plain product into the zero word, read at `(p, q)`: the sum over the contracted coordinate. -/
theorem plain_matmul_zero_apply {φ₁ φ₂ : FTy} (prec : Option ContractPrecision) (a : FVec Ideal ⟨2, ![M, K]⟩ φ₁)
    (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

end Dot

/-! ## Lane reductions -/

section Lanes

variable {A B : Nat} {φ : FTy}

/-- Row `p` with lane `k` put back is `(p, k)`. -/
theorem lift_row (h : (⟨2, ![A, B]⟩ : Shape).Reduces [1] ⟨1, ![A]⟩) (p : Fin A) (k : Fin B) :
    h.lift (ix1 p) k = ix2 p k :=
  funext fun a => Fin.ext (by match a with | ⟨0, _⟩ => rfl | ⟨1, _⟩ => rfl)

/-- A lane sum at row `p`. -/
theorem laneSum_apply (src : FVec Ideal ⟨2, ![A, B]⟩ φ) (acc : BitVec φ.bits) (h : (⟨2, ![A, B]⟩ : Shape).Reduces [1] ⟨1, ![A]⟩)
    (hφ : FKind.Formats φ) (hacc : acc = FKind.add.neutral φ hφ) (p : Fin A) :
    multiReduction .add [1] ⟨1, ![A]⟩ src acc h hφ hacc (ix1 p) = ∑ k : Fin B, src (ix2 p k) := by
  rw [Ideal.multiReduction_add_single]
  exact Finset.sum_congr rfl fun k _ => congrArg src (lift_row h p k)

/-- A lane maximum at row `p`: the fold of `max` from the starting word's value. -/
theorem laneMax_apply (src : FVec Ideal ⟨2, ![A, B]⟩ φ) (acc : BitVec φ.bits) (h : (⟨2, ![A, B]⟩ : Shape).Reduces [1] ⟨1, ![A]⟩)
    (hφ : FKind.Formats φ) (hacc : acc = FKind.maximumf.neutral φ hφ) (p : Fin A) :
    multiReduction .maximumf [1] ⟨1, ![A]⟩ src acc h hφ hacc (ix1 p)
      = (Finset.univ : Finset (Fin B)).fold max (Ideal.ofBits φ acc) (fun k => src (ix2 p k)) := by
  rw [Ideal.multiReduction_maximumf_single]
  have e : (src ∘ h.lift (ix1 p)) = fun k => src (ix2 p k) := funext fun k => congrArg src (lift_row h p k)
  rw [e]
  rfl

end Lanes

/-! ## Columns -/

section Columns

variable {A B : Nat} {α : Type}

/-- A length-`A` vector cast to a column reads, at `(p, u)`, the vector at `p`. -/
theorem column_apply (v : (⟨1, ![A]⟩ : Shape).Idx → α) (h : (⟨1, ![A]⟩ : Shape).ShapeCasts ⟨2, ![A, 1]⟩) (p : Fin A) (u : Fin 1) :
    shapeCast ⟨2, ![A, 1]⟩ v h (ix2 p u) = v (ix1 p) := by
  refine shapeCast_apply v h (ix2 p u) (ix1 p) ?_
  rw [Shape.rowMajor_val_one, Shape.rowMajor_val_two]
  have hu : u.val = 0 := by omega
  show p.val = p.val * 1 + u.val
  omega

/-- A column broadcast along the lanes reads, at `(p, q)`, the column at `(p, 0)`. -/
theorem columnBroadcast_apply (v : (⟨2, ![A, 1]⟩ : Shape).Idx → α) (h : (⟨2, ![A, 1]⟩ : Shape).Broadcasts ⟨2, ![A, B]⟩)
    (hA : A ≠ 1) (p : Fin A) (q : Fin B) : broadcastTo ⟨2, ![A, B]⟩ v h (ix2 p q) = v (ix2 p 0) := by
  refine broadcastTo_apply v h (ix2 p q) (ix2 p 0) fun a => ?_
  match a with
  | ⟨0, _⟩ => exact (if_neg hA).symm
  | ⟨1, _⟩ => exact (if_pos rfl).symm

end Columns

end Cert.Lib.Rowwise

end
-- ==== Proof.LibColumns.lean ====
/-
  Rank-2 vectors of `M` rows read at an element, at the extended reals, for any sizes.

    * two vectors joined side by side along the columns, at `(p, q)`: the left one at `(p, q)` when `q` is below its
      width, otherwise the right one at `(p, q - width)`;
    * a column `[A, 1]` cast to a length-`A` vector, at `p`: the column at `(p, 0)`;
    * a matrix product into the zero word whose record is any record of the plain shape (left axis 1 contracted
      with right axis 0, no batch axes), at `(p, q)`: `∑ₖ a(p, k) · b(k, q)`;
    * the same product against a TRANSPOSED `[N, K]` matrix `W`, at `(p, q)`: `∑ₖ a(p, k) · W(q, k)`.
-/
import proofs.«101280_j38723425141338_1_alg».proof.Proof.LibRowwise
import Idealize.ShloMosaic.Lib.ValueLayout

noncomputable section

namespace Cert.Lib.Columns

open Idealize.ShloMosaic Idealize.ShloMosaic.ValueIdx

/-! ## Two vectors side by side -/

section Join

variable {M A B C : Nat} {α : Type}

/-- Left of the seam the joined vector is its first piece. -/
theorem join_left (x₁ : (⟨2, ![M, A]⟩ : Shape).Idx → α) (x₂ : (⟨2, ![M, B]⟩ : Shape).Idx → α)
    (h : Shape.Concatenates [⟨2, ![M, A]⟩, ⟨2, ![M, B]⟩] ⟨2, ![M, C]⟩ 1) (p : Fin M) (q : Fin C) (hq : q.val < A) :
    concatenate ⟨2, ![M, C]⟩ 1 [⟨⟨2, ![M, A]⟩, x₁⟩, ⟨⟨2, ![M, B]⟩, x₂⟩] h (ix2 p q) = x₁ (ix2 p ⟨q.val, hq⟩) :=
  concatenate_pair_apply_left 1 x₁ x₂ h (ix2 p q) rfl (ix2 p ⟨q.val, hq⟩) fun b => by
    match b with
    | ⟨0, _⟩ => rfl
    | ⟨1, _⟩ => rfl

/-- From the seam on the joined vector is its second piece, the column counted from the seam. -/
theorem join_right (x₁ : (⟨2, ![M, A]⟩ : Shape).Idx → α) (x₂ : (⟨2, ![M, B]⟩ : Shape).Idx → α)
    (h : Shape.Concatenates [⟨2, ![M, A]⟩, ⟨2, ![M, B]⟩] ⟨2, ![M, C]⟩ 1) (p : Fin M) (q : Fin C) (hq : A ≤ q.val)
    (hB : q.val - A < B) :
    concatenate ⟨2, ![M, C]⟩ 1 [⟨⟨2, ![M, A]⟩, x₁⟩, ⟨⟨2, ![M, B]⟩, x₂⟩] h (ix2 p q) = x₂ (ix2 p ⟨q.val - A, hB⟩) :=
  concatenate_pair_apply_right 1 x₁ x₂ h (ix2 p q) rfl rfl (ix2 p ⟨q.val - A, hB⟩)
    (fun b hb => by
      match b, hb with
      | ⟨0, _⟩, _ => rfl
      | ⟨1, _⟩, hb => exact absurd rfl hb)
    (by show q.val - A + A = q.val; omega)

end Join

/-! ## A column read as a vector -/

/-- A column cast to a length-`A` vector reads, at `p`, the column at `(p, 0)`. -/
theorem uncolumn_apply {A : Nat} {α : Type} (v : (⟨2, ![A, 1]⟩ : Shape).Idx → α)
    (h : (⟨2, ![A, 1]⟩ : Shape).ShapeCasts ⟨1, ![A]⟩) (p : Fin A) :
    shapeCast ⟨1, ![A]⟩ v h (ix1 p) = v (ix2 p 0) := by
  refine shapeCast_apply v h (ix1 p) (ix2 p 0) ?_
  rw [Shape.rowMajor_val_one, Shape.rowMajor_val_two]
  show p.val * 1 + 0 = p.val
  omega

/-! ## Matrix products -/

section Dot

variable {M K N : Nat} {φ₁ φ₂ : FTy}

/-- Any record of the plain shape, into the zero word, at `(p, q)`. -/
theorem matmul_zero_apply (D : DotDims ⟨2, ![M, K]⟩ ⟨2, ![K, N]⟩ ⟨2, ![M, N]⟩) (h1 : D.lhsContracting = [1])
    (h2 : D.rhsContracting = [0]) (h3 : D.lhsNonContracting = [0]) (h4 : D.rhsNonContracting = [1]) (h5 : D.lhsBatch = [])
    (h6 : D.rhsBatch = []) (prec : Option ContractPrecision) (a : FVec Ideal ⟨2, ![M, K]⟩ φ₁) (b : FVec Ideal ⟨2, ![K, N]⟩ φ₂)
    (p : Fin M) (q : Fin N) :
    FloatOps.matmul D prec a b (constant ⟨2, ![M, N]⟩ .f32 0x00000000#32) (ix2 p q) = ∑ k : Fin K, a (ix2 p k) * b (ix2 k q) := by
  rw [Cert.Lib.Rowwise.eq_plain D h1 h2 h3 h4 h5 h6]
  exact Cert.Lib.Rowwise.plain_matmul_zero_apply prec a b p q

/-- The product of `a` with the transpose of a matrix `W` stored `[N, K]`: `∑ₖ a(p, k) · W(q, k)`. -/
theorem matmul_transposed_apply (D : DotDims ⟨2, ![M, K]⟩ ⟨2, ![K, N]⟩ ⟨2, ![M, N]⟩) (h1 : D.lhsContracting = [1])
    (h2 : D.rhsContracting = [0]) (h3 : D.lhsNonContracting = [0]) (h4 : D.rhsNonContracting = [1]) (h5 : D.lhsBatch = [])
    (h6 : D.rhsBatch = []) (prec : Option ContractPrecision) (a : FVec Ideal ⟨2, ![M, K]⟩ φ₁) (W : FVec Ideal ⟨2, ![N, K]⟩ φ₂)
    (hT : (⟨2, ![N, K]⟩ : Shape).Transposes [1, 0] ⟨2, ![K, N]⟩) (p : Fin M) (q : Fin N) :
    FloatOps.matmul D prec a (transpose ⟨2, ![K, N]⟩ [1, 0] W hT) (constant ⟨2, ![M, N]⟩ .f32 0x00000000#32) (ix2 p q)
      = ∑ k : Fin K, a (ix2 p k) * W (ix2 q k) := by
  rw [matmul_zero_apply D h1 h2 h3 h4 h5 h6]
  exact Finset.sum_congr rfl fun k _ => congrArg (a (ix2 p k) * ·) (transpose_ix2_apply W hT k q)

end Dot

end Cert.Lib.Columns

end
-- ==== Proof.Net.lean ====
/-
  The result of one row, over the extended reals.

  A row `x` has 48 entries. With five matrices `A [64, 32]`, `B [16, 64]`, `C [64, 32]`, `D [64, 64]`, `E [3, 64]`, each
  applied as `v ↦ (∑ₖ vₖ · W(j, k))ⱼ` (the product of the row with the matrix's transpose), and `r(a) = max a 0`:

      hidden = r (A · x[16 .. 47])                    64 entries
      feat   = B · hidden                             16 entries
      joined = x[0 .. 15] followed by feat            32 entries
      layer₁ = r (C · joined),  layer₂ = r (D · layer₁)
      logit  = E · layer₂                              3 entries

  and the row's four results are `1 / (1 + e^(-logitⱼ))` for `j = 0, 1, 2`, then `e^(feat₀)`. The whole array `G` applies
  this to each of its rows. Sums, products, `max`, `exp` and the quotient are those of the extended reals; no law of
  arithmetic is used anywhere, only this one formula read off both programs.
-/
import Idealize.ShloMosaic.PureOps.Ideal.Laws
import Idealize.ShloMosaic.Lib.ValueIdx

noncomputable section

namespace Cert.Net

open Idealize.ShloMosaic Idealize.ShloMosaic.ValueIdx

/-- Entry `j` of the product of the row `v` with the transpose of `W`: `∑ₖ vₖ · W(j, k)`. -/
def lin {N K : Nat} (W : (⟨2, ![N, K]⟩ : Shape).Idx → EReal) (v : Fin K → EReal) (j : Fin N) : EReal :=
  ∑ k : Fin K, v k * W (ix2 j k)

/-- The larger of a number and the value of the zero word. -/
def relu (a : EReal) : EReal := max a (Ideal.ofBits .f32 0x00000000#32)

/-- Entries 16 … 47 of a row. -/
def tail32 (x : Fin 48 → EReal) (k : Fin 32) : EReal := x ⟨16 + k.val, by have := k.isLt; omega⟩

/-- Entries 0 … 15 of a row. -/
def head16 (x : Fin 48 → EReal) (k : Fin 16) : EReal := x ⟨k.val, by have := k.isLt; omega⟩

section Row

variable (A : (⟨2, ![64, 32]⟩ : Shape).Idx → EReal) (B : (⟨2, ![16, 64]⟩ : Shape).Idx → EReal)
  (C : (⟨2, ![64, 32]⟩ : Shape).Idx → EReal) (D : (⟨2, ![64, 64]⟩ : Shape).Idx → EReal)
  (E : (⟨2, ![3, 64]⟩ : Shape).Idx → EReal)

def hidden (x : Fin 48 → EReal) (j : Fin 64) : EReal := relu (lin A (tail32 x) j)

def feat (x : Fin 48 → EReal) (j : Fin 16) : EReal := lin B (hidden A x) j

/-- The first sixteen entries of the row, then the sixteen of `feat`. -/
def joined (x : Fin 48 → EReal) (k : Fin 32) : EReal :=
  if h : k.val < 16 then head16 x ⟨k.val, h⟩ else feat A B x ⟨k.val - 16, by have := k.isLt; omega⟩

def layer1 (x : Fin 48 → EReal) (j : Fin 64) : EReal := relu (lin C (joined A B x) j)

def layer2 (x : Fin 48 → EReal) (j : Fin 64) : EReal := relu (lin D (layer1 A B C x) j)

def logit (x : Fin 48 → EReal) (j : Fin 3) : EReal := lin E (layer2 A B C D x) j

/-- The row's four results: the logistic function of the three logits, then the exponential of `feat₀`. -/
def result (x : Fin 48 → EReal) (q : Fin 4) : EReal :=
  if h : q.val < 3 then Ideal.logistic (logit A B C D E x ⟨q.val, h⟩) else Ideal.exp (feat A B x 0)

/-- The whole result array: row `n` is `result` of row `n` of `X`. -/
def G (X : (⟨2, ![2097152, 48]⟩ : Shape).Idx → EReal) : (⟨2, ![2097152, 4]⟩ : Shape).Idx → EReal :=
  fun i => result A B C D E (fun k => X (ix2 (i 0) k)) (i 1)

end Row

end Cert.Net

end
-- ==== Proof.KernelRows.lean ====
import proofs.«101280_j38723425141338_1_alg».proof.Proof.Gen.KernelIdeal.Skeleton
import proofs.«101280_j38723425141338_1_alg».proof.Proof.LibColumns
import proofs.«101280_j38723425141338_1_alg».proof.Proof.Net

noncomputable section

namespace Cert.KernelIdeal.Rows

open Cert.KernelIdeal Cert.KernelIdeal.Gen Idealize.ShloMosaic Idealize.ShloMosaic.ValueIdx Cert.Lib.Columns

/-- Row `p` of a block of 4096 rows. -/
abbrev row (v0 : Vec Ideal S4096x48 .f32) (p : Fin 4096) : Fin 48 → EReal := fun k => v0 (ix2 p k)

/-! ## The payloads, element by element

  Each product is taken against a transposed matrix into the zero word, so it is a sum over the contracted entry; the
  narrowings to a shorter format are the identity on extended reals; the slices and joins only pick entries. -/

/-- The 16-wide product: `feat` of the row. -/
theorem pay2_apply (v0 : Vec Ideal S4096x48 .f32) (v3 : Vec Ideal S64x32 .f32) (v10 : Vec Ideal S16x64 .f32) (p : Fin 4096)
    (q : Fin 16) : k0_pay2 (F := Ideal) v0 v3 v10 (ix2 p q) = Net.feat v3 v10 (row v0 p) q := by
  unfold k0_pay2
  refine (matmul_transposed_apply _ rfl rfl rfl rfl rfl rfl none _ _ _ p q).trans ?_
  refine Finset.sum_congr rfl fun k _ => congrArg (· * v10 (ix2 q k)) ?_
  show max _ (Ideal.ofBits .f32 0x00000000#32) = max (Net.lin v3 (Net.tail32 (row v0 p)) k) (Ideal.ofBits .f32 0x00000000#32)
  refine congrArg (max · (Ideal.ofBits .f32 0x00000000#32)) ?_
  refine (matmul_transposed_apply _ rfl rfl rfl rfl rfl rfl none _ _ _ p k).trans ?_
  refine Finset.sum_congr rfl fun k' _ => congrArg (· * v3 (ix2 k k')) ?_
  exact slice2_axis1_apply 16 v0 slices_S4096x48_o0_16_S4096x32 p k' _ rfl

/-- The exponential of the first of the sixteen. -/
theorem pay3_apply (v0 : Vec Ideal S4096x48 .f32) (v3 : Vec Ideal S64x32 .f32) (v10 : Vec Ideal S16x64 .f32) (p : Fin 4096) :
    k0_pay3 (F := Ideal) v0 v3 v10 (ix1 p) = Ideal.exp (Net.feat v3 v10 (row v0 p) 0) := by
  unfold k0_pay3
  show Ideal.exp _ = Ideal.exp _
  refine congrArg Ideal.exp ?_
  refine (uncolumn_apply _ shapeCasts_S4096x1_S4096 p).trans ?_
  refine (slice2_axis1_apply 0 (k0_pay2 (F := Ideal) v0 v3 v10) slices_S4096x16_o0_0_S4096x1 p 0 0 rfl).trans ?_
  exact pay2_apply v0 v3 v10 p 0

/-- The joined 32 entries: the row's first sixteen, then `feat`. -/
theorem joined_apply (v0 : Vec Ideal S4096x48 .f32) (v3 : Vec Ideal S64x32 .f32) (v10 : Vec Ideal S16x64 .f32) (p : Fin 4096)
    (k : Fin 32) :
    concatenate S4096x32 1 [⟨S4096x16, extractStridedSlice S4096x16 ![0, 0] v0 slices_S4096x48_o0_0_S4096x16⟩,
        ⟨S4096x16, k0_pay2 (F := Ideal) v0 v3 v10⟩] concatenates_S4096x16_S4096x16_S4096x32_d1 (ix2 p k)
      = Net.joined v3 v10 (row v0 p) k := by
  unfold Net.joined
  by_cases h : k.val < 16
  · rw [dif_pos h]
    refine (join_left _ _ concatenates_S4096x16_S4096x16_S4096x32_d1 p k h).trans ?_
    exact slice2_axis1_apply 0 v0 slices_S4096x48_o0_0_S4096x16 p ⟨k.val, h⟩ _ (Nat.zero_add _).symm
  · rw [dif_neg h]
    have hk := k.isLt
    refine (join_right _ _ concatenates_S4096x16_S4096x16_S4096x32_d1 p k (by omega) (by omega)).trans ?_
    exact pay2_apply v0 v3 v10 p _

/-- The logistic function of the three logits. -/
theorem pay4_apply (v0 : Vec Ideal S4096x48 .f32) (v3 : Vec Ideal S64x32 .f32) (v10 : Vec Ideal S16x64 .f32)
    (v19 : Vec Ideal S64x32 .f32) (v26 : Vec Ideal S64x64 .f32) (v33 : Vec Ideal S3x64 .f32) (p : Fin 4096) (q : Fin 3) :
    k0_pay4 (F := Ideal) v0 v3 v10 v19 v26 v33 (ix2 p q) = Ideal.logistic (Net.logit v3 v10 v19 v26 v33 (row v0 p) q) := by
  unfold k0_pay4
  show Ideal.logistic _ = Ideal.logistic _
  refine congrArg Ideal.logistic ?_
  refine (matmul_transposed_apply _ rfl rfl rfl rfl rfl rfl none _ _ _ p q).trans ?_
  refine Finset.sum_congr rfl fun k2 _ => congrArg (· * v33 (ix2 q k2)) ?_
  show max _ (Ideal.ofBits .f32 0x00000000#32)
    = max (Net.lin v26 (Net.layer1 v3 v10 v19 (row v0 p)) k2) (Ideal.ofBits .f32 0x00000000#32)
  refine congrArg (max · (Ideal.ofBits .f32 0x00000000#32)) ?_
  refine (matmul_transposed_apply _ rfl rfl rfl rfl rfl rfl none _ _ _ p k2).trans ?_
  refine Finset.sum_congr rfl fun k1 _ => congrArg (· * v26 (ix2 k2 k1)) ?_
  show max _ (Ideal.ofBits .f32 0x00000000#32)
    = max (Net.lin v19 (Net.joined v3 v10 (row v0 p)) k1) (Ideal.ofBits .f32 0x00000000#32)
  refine congrArg (max · (Ideal.ofBits .f32 0x00000000#32)) ?_
  refine (matmul_transposed_apply _ rfl rfl rfl rfl rfl rfl none _ _ _ p k1).trans ?_
  refine Finset.sum_congr rfl fun k0 _ => congrArg (· * v19 (ix2 k1 k0)) ?_
  exact joined_apply v0 v3 v10 p k0

/-- The block's result: the three logistic values, then the exponential. -/
theorem pay1_apply (v0 : Vec Ideal S4096x48 .f32) (v3 : Vec Ideal S64x32 .f32) (v10 : Vec Ideal S16x64 .f32)
    (v19 : Vec Ideal S64x32 .f32) (v26 : Vec Ideal S64x64 .f32) (v33 : Vec Ideal S3x64 .f32) (p : Fin 4096) (q : Fin 4) :
    k0_pay1 (F := Ideal) (k0_pay3 v0 v3 v10) (k0_pay4 v0 v3 v10 v19 v26 v33) (ix2 p q)
      = Net.result v3 v10 v19 v26 v33 (row v0 p) q := by
  unfold k0_pay1 Net.result
  by_cases h : q.val < 3
  · rw [dif_pos h]
    refine (join_left _ _ concatenates_S4096x3_S4096x1_S4096x4_d1 p q h).trans ?_
    exact pay4_apply v0 v3 v10 v19 v26 v33 p ⟨q.val, h⟩
  · rw [dif_neg h]
    have hq := q.isLt
    refine (join_right _ _ concatenates_S4096x3_S4096x1_S4096x4_d1 p q (by omega) (by omega)).trans ?_
    refine (Cert.Lib.Rowwise.column_apply _ shapeCasts_S4096_S4096x1 p _).trans ?_
    exact pay3_apply v0 v3 v10 p

end Cert.KernelIdeal.Rows

end
-- ==== Proof.KernelValue.lean ====
import proofs.«101280_j38723425141338_1_alg».proof.Proof.Gen.KernelIdeal.Value
import proofs.«101280_j38723425141338_1_alg».proof.Proof.KernelRows

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## One grid point

  Point `t` of the 512 stages rows `4096·t … 4096·t + 4095` of the first argument and the five matrices whole, and
  writes the same rows of the result. -/

theorem hz : (![0, 0] : Fin 2 → Nat) = fun _ => 0 := funext fun a => by fin_cases a <;> rfl

/-- A block `b0` whose row `p` is row `r p` of the array `X` gives, at `(p, q)`, the array's function `G` at
    `(r p, q)`. -/
theorem point_eq (X : S2097152x48.Idx → EReal) (A : S64x32.Idx → EReal) (B : S16x64.Idx → EReal) (C : S64x32.Idx → EReal)
    (D : S64x64.Idx → EReal) (E : S3x64.Idx → EReal) (b0 : Vec Ideal S4096x48 .f32) (b1 : Vec Ideal S64x32 .f32)
    (b2 : Vec Ideal S16x64 .f32) (b3 : Vec Ideal S64x32 .f32) (b4 : Vec Ideal S64x64 .f32) (b5 : Vec Ideal S3x64 .f32)
    (r : Fin 4096 → Fin 2097152) (h0 : ∀ (p : Fin 4096) (k : Fin 48), b0 (ix2 p k) = X (ix2 (r p) k))
    (h1 : b1 = A) (h2 : b2 = B) (h3 : b3 = C) (h4 : b4 = D) (h5 : b5 = E)
    (j : S4096x4.Idx) (i : S2097152x4.Idx) (hi0 : i 0 = r (j 0)) (hi1 : i 1 = j 1) :
    k0_pay1 (F := Ideal) (k0_pay3 b0 b1 b2) (k0_pay4 b0 b1 b2 b3 b4 b5) j = Net.G A B C D E X i := by
  subst h1 h2 h3 h4 h5
  obtain ⟨p, q, rfl⟩ : ∃ (p : Fin 4096) (q : Fin 4), j = ix2 p q := ⟨j 0, j 1, eq_ix2 j⟩
  refine (Rows.pay1_apply b0 b1 b2 b3 b4 b5 p q).trans ?_
  unfold Net.G
  have hr : Rows.row b0 p = fun k => X (ix2 (i 0) k) := funext fun k => by rw [hi0]; exact h0 p k
  rw [hr, hi1]

/-- The printed index maps, decided over the grid: the first argument's and the result's blocks are numbered by the
    point, every other block is the one block of its matrix. -/
theorem idx_facts : ∀ t : Fin cfg0.N,
      win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Each matrix is staged whole. -/
theorem blk1 (c : Dev nD) (t : Fin cfg0.N) : (iblk m c 1 t : Vec Ideal S64x32 .f32) = V m c main_arg1 := by
  obtain ⟨-, -, e0, e1, -⟩ := idx_facts t
  funext y
  show V m c main_arg1 (((cfg0.win 1).blk t).view.emb y) = V m c main_arg1 y
  refine congrArg _ (funext fun a => Fin.ext ?_)
  match a with
  | ⟨0, _⟩ => show win0_1.index t (0 : Fin 2) * 64 + 1 * (y 0).val = (y 0).val; omega
  | ⟨1, _⟩ => show win0_1.index t (1 : Fin 2) * 32 + 1 * (y 1).val = (y 1).val; omega

theorem blk2 (c : Dev nD) (t : Fin cfg0.N) : (iblk m c 2 t : Vec Ideal S16x64 .f32) = V m c main_arg2 := by
  obtain ⟨-, -, -, -, e0, e1, -⟩ := idx_facts t
  funext y
  show V m c main_arg2 (((cfg0.win 2).blk t).view.emb y) = V m c main_arg2 y
  refine congrArg _ (funext fun a => Fin.ext ?_)
  match a with
  | ⟨0, _⟩ => show win0_2.index t (0 : Fin 2) * 16 + 1 * (y 0).val = (y 0).val; omega
  | ⟨1, _⟩ => show win0_2.index t (1 : Fin 2) * 64 + 1 * (y 1).val = (y 1).val; omega

theorem blk3 (c : Dev nD) (t : Fin cfg0.N) : (iblk m c 3 t : Vec Ideal S64x32 .f32) = V m c main_arg3 := by
  obtain ⟨-, -, -, -, -, -, e0, e1, -⟩ := idx_facts t
  funext y
  show V m c main_arg3 (((cfg0.win 3).blk t).view.emb y) = V m c main_arg3 y
  refine congrArg _ (funext fun a => Fin.ext ?_)
  match a with
  | ⟨0, _⟩ => show win0_3.index t (0 : Fin 2) * 64 + 1 * (y 0).val = (y 0).val; omega
  | ⟨1, _⟩ => show win0_3.index t (1 : Fin 2) * 32 + 1 * (y 1).val = (y 1).val; omega

theorem blk4 (c : Dev nD) (t : Fin cfg0.N) : (iblk m c 4 t : Vec Ideal S64x64 .f32) = V m c main_arg4 := by
  obtain ⟨-, -, -, -, -, -, -, -, e0, e1, -⟩ := idx_facts t
  funext y
  show V m c main_arg4 (((cfg0.win 4).blk t).view.emb y) = V m c main_arg4 y
  refine congrArg _ (funext fun a => Fin.ext ?_)
  match a with
  | ⟨0, _⟩ => show win0_4.index t (0 : Fin 2) * 64 + 1 * (y 0).val = (y 0).val; omega
  | ⟨1, _⟩ => show win0_4.index t (1 : Fin 2) * 64 + 1 * (y 1).val = (y 1).val; omega

theorem blk5 (c : Dev nD) (t : Fin cfg0.N) : (iblk m c 5 t : Vec Ideal S3x64 .f32) = V m c main_arg5 := by
  obtain ⟨-, -, -, -, -, -, -, -, -, -, e0, e1, -⟩ := idx_facts t
  funext y
  show V m c main_arg5 (((cfg0.win 5).blk t).view.emb y) = V m c main_arg5 y
  refine congrArg _ (funext fun a => Fin.ext ?_)
  match a with
  | ⟨0, _⟩ => show win0_5.index t (0 : Fin 2) * 3 + 1 * (y 0).val = (y 0).val; omega
  | ⟨1, _⟩ => show win0_5.index t (1 : Fin 2) * 64 + 1 * (y 1).val = (y 1).val; omega

/-- The array's row that row `p` of point `t`'s block is. -/
def rowOf (t : Fin cfg0.N) (p : Fin 4096) : Fin 2097152 :=
  ⟨t.val * 4096 + p.val, by have ht : t.val < 512 := t.isLt; have hp := p.isLt; omega⟩

/-- Row `p` of the block of the first argument at point `t` is row `4096·t + p` of the array. -/
theorem blk0 (c : Dev nD) (t : Fin cfg0.N) (p : Fin 4096) (k : Fin 48) :
    (iblk m c 0 t : Vec Ideal S4096x48 .f32) (ix2 p k) = V m c main_arg0 (ix2 (rowOf t p) k) := by
  obtain ⟨e0, e1, -⟩ := idx_facts t
  show V m c main_arg0 (((cfg0.win 0).blk t).view.emb (ix2 p k)) = V m c main_arg0 (ix2 (rowOf t p) k)
  refine congrArg _ (funext fun a => Fin.ext ?_)
  match a with
  | ⟨0, _⟩ => show win0_0.index t (0 : Fin 2) * 4096 + 1 * p.val = t.val * 4096 + p.val; omega
  | ⟨1, _⟩ => show win0_0.index t (1 : Fin 2) * 48 + 1 * k.val = k.val; omega

/-- WHAT POINT `t` WRITES BACK is block `t` of `G` of the argument arrays as the region finds them. -/
theorem flushed_eq (c : Dev nD) (t : Fin cfg0.N) :
    (dats m 0 c).flushed 6 t = ((cfg0.win 6).blk t).view.read (Elt Ideal)
      (Net.G (V m c main_arg1) (V m c main_arg2) (V m c main_arg3) (V m c main_arg4) (V m c main_arg5) (V m c main_arg0)) := by
  rw [Value.flushed6]
  unfold out0_6
  rw [View.canon_unit_zero hz]
  simp only [View.ld_unit_zero (S := S4096x48) hz, View.ld_unit_zero (S := S64x32) hz, View.ld_unit_zero (S := S16x64) hz,
    View.ld_unit_zero (S := S64x64) hz, View.ld_unit_zero (S := S3x64) hz]
  obtain ⟨-, -, -, -, -, -, -, -, -, -, -, -, e0, e1⟩ := idx_facts t
  funext j
  exact point_eq (V m c main_arg0) (V m c main_arg1) (V m c main_arg2) (V m c main_arg3) (V m c main_arg4) (V m c main_arg5)
    (iblk m c 0 t) (iblk m c 1 t) (iblk m c 2 t) (iblk m c 3 t) (iblk m c 4 t) (iblk m c 5 t) (rowOf t)
    (blk0 m c t) (blk1 m c t) (blk2 m c t) (blk3 m c t) (blk4 m c t) (blk5 m c t) j (((cfg0.win 6).blk t).view.emb j)
    (Fin.ext (by show win0_6.index t (0 : Fin 2) * 4096 + 1 * (j 0).val = t.val * 4096 + (j 0).val; omega))
    (Fin.ext (by show win0_6.index t (1 : Fin 2) * 4 + 1 * (j 1).val = (j 1).val; omega))

/-! ## The whole array -/

/-- An index of the array is in point `t`'s block iff each coordinate is in the block's range on its axis. -/
theorem mem_blk (t : Fin cfg0.N) (i : S2097152x4.Idx) :
    i ∈ ((cfg0.win 6).blk t).view.set ↔ ∀ a : Fin 2, win0_6.index t a * S4096x4.size a ≤ (i a).val
      ∧ (i a).val < win0_6.index t a * S4096x4.size a + S4096x4.size a := by
  show i ∈ ((View.whole main_v0).slice (win0_6.rect t)).set ↔ _
  rw [View.set_slice_whole, Rect.mem_set_unit]
  exact Iff.rfl

/-- Every index of the result is written by the point that owns its row: row `n` belongs to point `n / 4096`. -/
theorem cover (i : S2097152x4.Idx) :
    ∃ t : Fin cfg0.N, (cfg0.win 6).flush t = true ∧ i ∈ ((cfg0.win 6).blk t).view.set := by
  have hi0 : (i 0).val < 2097152 := (i 0).isLt
  have hi1 : (i 1).val < 4 := (i 1).isLt
  have ht : (i 0).val / 4096 < 512 := by omega
  obtain ⟨-, -, -, -, -, -, -, -, -, -, -, -, e0, e1⟩ := idx_facts ⟨(i 0).val / 4096, ht⟩
  refine ⟨⟨(i 0).val / 4096, ht⟩, flush0_6 _, ?_⟩
  rw [mem_blk]
  intro a
  match a with
  | ⟨0, _⟩ =>
    show win0_6.index ⟨(i 0).val / 4096, ht⟩ (0 : Fin 2) * 4096 ≤ (i 0).val
      ∧ (i 0).val < win0_6.index ⟨(i 0).val / 4096, ht⟩ (0 : Fin 2) * 4096 + 4096
    rw [e0]; show (i 0).val / 4096 * 4096 ≤ (i 0).val ∧ (i 0).val < (i 0).val / 4096 * 4096 + 4096; omega
  | ⟨1, _⟩ =>
    show win0_6.index ⟨(i 0).val / 4096, ht⟩ (1 : Fin 2) * 4 ≤ (i 1).val
      ∧ (i 1).val < win0_6.index ⟨(i 0).val / 4096, ht⟩ (1 : Fin 2) * 4 + 4
    rw [e1]; omega

/-- THE ARRAY after the run is `G` of the argument arrays. -/
theorem final (c : Dev nD) : (dats m 0 c).arrAt 6 cfg0.N
    = Net.G (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg0)) :=
  (dats m 0 c).arrAt_eq_of_cover 6 _ (fun t _ => flushed_eq m c t) cover

/-- The kernel's run with its result array named: `G` of the arguments, which end unchanged. -/
theorem run : θ_run defs (onTc (τ := τ) (main (F := Ideal))) ⟨m, fun _ => 0, ρ⟩ fun r => ∀ c : Dev nD,
      r.2.mem ((c : Thread nD τ).loc main_v0)
        = Net.G (m ((c : Thread nD τ).loc main_arg1)) (m ((c : Thread nD τ).loc main_arg2)) (m ((c : Thread nD τ).loc main_arg3))
            (m ((c : Thread nD τ).loc main_arg4)) (m ((c : Thread nD τ).loc main_arg5)) (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Whole

end
-- ==== Proof.RefRows.lean ====
import proofs.«101280_j38723425141338_1_alg».proof.Proof.Gen.ReferenceIdeal.Read
import proofs.«101280_j38723425141338_1_alg».proof.Proof.LibColumns
import proofs.«101280_j38723425141338_1_alg».proof.Proof.Net

noncomputable section

namespace Cert.ReferenceIdeal.Rows

open Cert.ReferenceIdeal Cert.ReferenceIdeal.Gen Cert.ReferenceIdeal.Read Idealize.ShloMosaic Idealize.ShloMosaic.ValueIdx Cert.Lib.Columns

/-- The types of the six argument arrays, at the extended reals. -/
abbrev TX := (⟨S2097152x48, .f32⟩ : BufTy).Contents (Elt Ideal)
abbrev TA := (⟨S64x32, .f32⟩ : BufTy).Contents (Elt Ideal)
abbrev TB := (⟨S16x64, .f32⟩ : BufTy).Contents (Elt Ideal)
abbrev TD := (⟨S64x64, .f32⟩ : BufTy).Contents (Elt Ideal)
abbrev TE := (⟨S3x64, .f32⟩ : BufTy).Contents (Elt Ideal)

/-- Row `n` of the whole array. -/
abbrev row (x0 : TX) (n : Fin 2097152) : Fin 48 → EReal := fun k => x0 (ix2 n k)

/-- The word of the number one. -/
theorem one_word : Ideal.ofBits .f32 0x3F800000#32 = 1 := by
  simp [Ideal.ofBits, Ideal.ieee, -EReal.coe_mul]; norm_num

/-! ## The reference's stages, element by element

  Each `dot_general` contracts the left operand's columns with a transposed matrix's rows, so it is the same sum over
  the contracted entry as the row formula's; the index functions the stages compose are the coordinates `(n, k)`. -/

theorem hidden_apply (x0 : TX) (x1 : TA) (n : Fin 2097152) (j : Fin 64) :
    val_main_v4 (F := Ideal) x0 x1 (ix2 n j) = Net.hidden x1 (row x0 n) j := by
  rw [val_main_v4_apply, val_main_v3_apply, val_main_call0_v0_apply, val_main_call0_cst_apply]
  show max _ (Ideal.ofBits .f32 0x00000000#32) = max (Net.lin x1 (Net.tail32 (row x0 n)) j) (Ideal.ofBits .f32 0x00000000#32)
  refine congrArg (max · (Ideal.ofBits .f32 0x00000000#32)) (Finset.sum_congr rfl fun k _ => ?_)
  rw [val_main_v1_apply, val_main_v2_apply]
  exact congrArg₂ (fun a b : EReal => a * b) (congrArg x0 (funext fun a => by match a with | ⟨0, _⟩ => rfl | ⟨1, _⟩ => rfl))
    (congrArg x1 (funext fun a => by match a with | ⟨0, _⟩ => rfl | ⟨1, _⟩ => rfl))

theorem feat_apply (x0 : TX) (x1 : TA) (x2 : TB) (n : Fin 2097152) (j : Fin 16) :
    val_main_v6 (F := Ideal) x0 x1 x2 (ix2 n j) = Net.feat x1 x2 (row x0 n) j := by
  rw [val_main_v6_apply]
  unfold Net.feat Net.lin
  refine Finset.sum_congr rfl fun k _ => ?_
  rw [val_main_v5_apply]
  have e : lidx_main_v6 (ix2 n j) k = ix2 n k := funext fun a => by match a with | ⟨0, _⟩ => rfl | ⟨1, _⟩ => rfl
  rw [e]
  exact congrArg₂ (fun a b : EReal => a * b) (hidden_apply x0 x1 n k)
    (congrArg x2 (funext fun a => by match a with | ⟨0, _⟩ => rfl | ⟨1, _⟩ => rfl))

theorem expFeat_apply (x0 : TX) (x1 : TA) (x2 : TB) (n : Fin 2097152) :
    val_main_v9 (F := Ideal) x0 x1 x2 (ix1 n) = Ideal.exp (Net.feat x1 x2 (row x0 n) 0) := by
  rw [val_main_v9_apply, val_main_v8_apply, val_main_v7_apply]
  show Ideal.exp _ = Ideal.exp _
  refine congrArg Ideal.exp ?_
  have e : idx_main_v7 (idx_main_v8 (ix1 n)) = ix2 n 0 := funext fun a => by
    match a with
    | ⟨0, _⟩ => exact Fin.ext (Nat.div_one n.val)
    | ⟨1, _⟩ => rfl
  rw [e]
  exact feat_apply x0 x1 x2 n 0

theorem joined_apply (x0 : TX) (x1 : TA) (x2 : TB) (n : Fin 2097152) (k : Fin 32) :
    val_main_v10 (F := Ideal) x0 x1 x2 (ix2 n k) = Net.joined x1 x2 (row x0 n) k := by
  unfold val_main_v10 Net.joined
  by_cases h : k.val < 16
  · rw [dif_pos h]
    refine (join_left _ _ concatenates_S2097152x16_S2097152x16_S2097152x32_d1 n k h).trans ?_
    rw [val_main_v0_apply]
    exact congrArg x0 (funext fun a => by match a with | ⟨0, _⟩ => rfl | ⟨1, _⟩ => rfl)
  · rw [dif_neg h]
    have hk := k.isLt
    refine (join_right _ _ concatenates_S2097152x16_S2097152x16_S2097152x32_d1 n k (by omega) (by omega)).trans ?_
    exact feat_apply x0 x1 x2 n _

theorem layer1_apply (x0 : TX) (x1 : TA) (x2 : TB) (x3 : TA) (n : Fin 2097152) (j : Fin 64) :
    val_main_v13 (F := Ideal) x0 x1 x2 x3 (ix2 n j) = Net.layer1 x1 x2 x3 (row x0 n) j := by
  rw [val_main_v13_apply, val_main_v12_apply, val_main_call1_v0_apply, val_main_call1_cst_apply]
  show max _ (Ideal.ofBits .f32 0x00000000#32)
    = max (Net.lin x3 (Net.joined x1 x2 (row x0 n)) j) (Ideal.ofBits .f32 0x00000000#32)
  refine congrArg (max · (Ideal.ofBits .f32 0x00000000#32)) (Finset.sum_congr rfl fun k _ => ?_)
  rw [val_main_v11_apply]
  have e : lidx_main_v12 (ix2 n j) k = ix2 n k := funext fun a => by match a with | ⟨0, _⟩ => rfl | ⟨1, _⟩ => rfl
  rw [e]
  exact congrArg₂ (fun a b : EReal => a * b) (joined_apply x0 x1 x2 n k)
    (congrArg x3 (funext fun a => by match a with | ⟨0, _⟩ => rfl | ⟨1, _⟩ => rfl))

theorem layer2_apply (x0 : TX) (x1 : TA) (x2 : TB) (x3 : TA) (x4 : TD) (n : Fin 2097152) (j : Fin 64) :
    val_main_v16 (F := Ideal) x0 x1 x2 x3 x4 (ix2 n j) = Net.layer2 x1 x2 x3 x4 (row x0 n) j := by
  rw [val_main_v16_apply, val_main_v15_apply, val_main_call2_v0_apply, val_main_call2_cst_apply]
  show max _ (Ideal.ofBits .f32 0x00000000#32)
    = max (Net.lin x4 (Net.layer1 x1 x2 x3 (row x0 n)) j) (Ideal.ofBits .f32 0x00000000#32)
  refine congrArg (max · (Ideal.ofBits .f32 0x00000000#32)) (Finset.sum_congr rfl fun k _ => ?_)
  rw [val_main_v14_apply]
  have e : lidx_main_v15 (ix2 n j) k = ix2 n k := funext fun a => by match a with | ⟨0, _⟩ => rfl | ⟨1, _⟩ => rfl
  rw [e]
  exact congrArg₂ (fun a b : EReal => a * b) (layer1_apply x0 x1 x2 x3 n k)
    (congrArg x4 (funext fun a => by match a with | ⟨0, _⟩ => rfl | ⟨1, _⟩ => rfl))

theorem logit_apply (x0 : TX) (x1 : TA) (x2 : TB) (x3 : TA) (x4 : TD) (x5 : TE) (n : Fin 2097152) (j : Fin 3) :
    val_main_v18 (F := Ideal) x0 x1 x2 x3 x4 x5 (ix2 n j) = Net.logit x1 x2 x3 x4 x5 (row x0 n) j := by
  rw [val_main_v18_apply]
  unfold Net.logit Net.lin
  refine Finset.sum_congr rfl fun k _ => ?_
  rw [val_main_v17_apply]
  have e : lidx_main_v18 (ix2 n j) k = ix2 n k := funext fun a => by match a with | ⟨0, _⟩ => rfl | ⟨1, _⟩ => rfl
  rw [e]
  exact congrArg₂ (fun a b : EReal => a * b) (layer2_apply x0 x1 x2 x3 x4 n k)
    (congrArg x5 (funext fun a => by match a with | ⟨0, _⟩ => rfl | ⟨1, _⟩ => rfl))

/-- The reference spells the logistic function out: one over one plus the exponential of the negation. -/
theorem logistic_apply (x0 : TX) (x1 : TA) (x2 : TB) (x3 : TA) (x4 : TD) (x5 : TE) (n : Fin 2097152) (j : Fin 3) :
    val_main_v24 (F := Ideal) x0 x1 x2 x3 x4 x5 (ix2 n j) = Ideal.logistic (Net.logit x1 x2 x3 x4 x5 (row x0 n) j) := by
  rw [val_main_v24_apply, val_main_v23_apply, val_main_cst_0_apply, val_main_v22_apply, val_main_v21_apply,
    val_main_cst_apply, val_main_v20_apply, val_main_v19_apply, logit_apply]
  show Ideal.div (Ideal.ofBits .f32 0x3F800000#32)
      (Ideal.ofBits .f32 0x3F800000#32 + Ideal.exp (-(Net.logit x1 x2 x3 x4 x5 (row x0 n) j)))
    = Ideal.div 1 (1 + Ideal.exp (-(Net.logit x1 x2 x3 x4 x5 (row x0 n) j)))
  rw [one_word]

theorem result_apply (x0 : TX) (x1 : TA) (x2 : TB) (x3 : TA) (x4 : TD) (x5 : TE) (n : Fin 2097152) (q : Fin 4) :
    val_main_v26 (F := Ideal) x0 x1 x2 x3 x4 x5 (ix2 n q) = Net.result x1 x2 x3 x4 x5 (row x0 n) q := by
  unfold val_main_v26 Net.result
  by_cases h : q.val < 3
  · rw [dif_pos h]
    refine (join_left _ _ concatenates_S2097152x3_S2097152x1_S2097152x4_d1 n q h).trans ?_
    exact logistic_apply x0 x1 x2 x3 x4 x5 n ⟨q.val, h⟩
  · rw [dif_neg h]
    have hq := q.isLt
    refine (join_right _ _ concatenates_S2097152x3_S2097152x1_S2097152x4_d1 n q (by omega) (by omega)).trans ?_
    rw [val_main_v25_apply]
    have e : idx_main_v25 (ix2 n (⟨q.val - 3, by omega⟩ : Fin 1)) = ix1 n := funext fun a => by match a with | ⟨0, _⟩ => rfl
    rw [e]
    exact expFeat_apply x0 x1 x2 n

/-- The reference's result array is `G` of its arguments. -/
theorem ref_eq (x0 : TX) (x1 : TA) (x2 : TB) (x3 : TA) (x4 : TD) (x5 : TE) :
    val_main_v26 (F := Ideal) x0 x1 x2 x3 x4 x5 = Net.G x1 x2 x3 x4 x5 x0 := by
  funext i
  obtain ⟨n, q, rfl⟩ : ∃ (n : Fin 2097152) (q : Fin 4), i = ix2 n q := ⟨i 0, i 1, eq_ix2 i⟩
  exact result_apply x0 x1 x2 x3 x4 x5 n q

end Cert.ReferenceIdeal.Rows

end
-- ==== Proof.lean ====
/-
  The kernel and its reference compute one function of their arguments.

  The first argument has 2097152 rows of 48 entries; the other five are matrices `A [64, 32]`, `B [16, 64]`,
  `C [64, 32]`, `D [64, 64]`, `E [3, 64]`. With `r(a) = max a 0` and each matrix applied to a row `v` as
  `(∑ₖ vₖ · W(j, k))ⱼ`, a row `x` gives

      feat  = B · r (A · x[16 .. 47])
      logit = E · r (D · r (C · (x[0 .. 15], feat)))

  and its four results are `1 / (1 + e^(-logitⱼ))`, `j = 0, 1, 2`, then `e^(feat₀)` (Net.lean, `Net.G`).

  The kernel works on 512 blocks of 4096 rows. Inside a block each product is taken against a transposed matrix into the
  zero word, hence is the sum over the contracted entry; narrowing a number to a shorter format is the identity on
  extended reals; the logistic operation IS `1 / (1 + e^(-x))` (KernelRows.lean). Row `p` of block `t` is row
  `4096·t + p` of the array, the matrices are staged whole, and the blocks' rows tile the result (KernelValue.lean).
  The reference applies the same products to the whole array, spells the logistic function out with the word of the
  number one, and joins the same pieces (RefRows.lean). Both sides are this one formula entry by entry: no law of
  arithmetic is needed and the precondition is never opened.

  No operation was rewritten when the kernel was idealized, so the statement about the idealization is `True`.
-/
import proofs.«101280_j38723425141338_1_alg».proof.Defs
import proofs.«101280_j38723425141338_1_alg».proof.Proof.Gen.Kernel
import proofs.«101280_j38723425141338_1_alg».proof.Proof.Gen.Kernel.Skeleton
import proofs.«101280_j38723425141338_1_alg».proof.Proof.Gen.Kernel.Launch
import proofs.«101280_j38723425141338_1_alg».proof.Proof.Gen.Kernel.Points
import proofs.«101280_j38723425141338_1_alg».proof.Proof.Gen.Kernel.Frame
import proofs.«101280_j38723425141338_1_alg».proof.Proof.Gen.KernelIdeal
import proofs.«101280_j38723425141338_1_alg».proof.Proof.Gen.KernelIdeal.Skeleton
import proofs.«101280_j38723425141338_1_alg».proof.Proof.Gen.KernelIdeal.Launch
import proofs.«101280_j38723425141338_1_alg».proof.Proof.Gen.KernelIdeal.Points
import proofs.«101280_j38723425141338_1_alg».proof.Proof.Gen.KernelIdeal.Frame
import proofs.«101280_j38723425141338_1_alg».proof.Proof.Gen.ReferenceIdeal
import proofs.«101280_j38723425141338_1_alg».proof.Proof.Gen.Pre_finite_inputs
import proofs.«101280_j38723425141338_1_alg».proof.Proof.Gen.KernelIdeal.Value
import proofs.«101280_j38723425141338_1_alg».proof.Proof.Gen.ReferenceIdeal.Run
import proofs.«101280_j38723425141338_1_alg».proof.Proof.Gen.ReferenceIdeal.Read
import proofs.«101280_j38723425141338_1_alg».proof.Proof.KernelValue
import proofs.«101280_j38723425141338_1_alg».proof.Proof.RefRows
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with their result array at `Net.G` of the arguments, and the arguments agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.ReferenceIdeal.Rows.ref_eq, (hagree c).1, (hagree c).2.1,
    (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
